-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x512x512 : Shape := ⟨3, ![128, 512, 512]⟩
abbrev S1024x512 : Shape := ⟨2, ![1024, 512]⟩
abbrev S512 : Shape := ⟨1, ![512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg0 : IVec S128x512 32) (main_arg1 : IVec S128x512 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S128x512 32 := broadcastInDim S128x512 ![] bcast_S_S128x512 main_c_6
  let main_v20 : IVec S128x512 1 := cmpi .sge main_arg0 main_v19
  let main_c_7 : IVec S_ 32 := constantI S_ 32 1024#32
  let main_v21 : IVec S128x512 32 := broadcastInDim S128x512 ![] bcast_S_S128x512 main_c_7
  let main_v22 : IVec S128x512 1 := cmpi .slt main_arg0 main_v21
  let main_v23 : IVec S128x512 1 := andi main_v20 main_v22
  let main_c_8 : IVec S_ 1 := constantI S_ 1 1#1
  let main_v24 : IVec S_ 1 := (fun x v => Host.reduce IntOp.andi x v reducesTo_S128x512_S_d0_1 h_S_) main_v23 main_c_8
  let main_v25 : IVec S_ 1 := andi main_v18 main_v24
  let main_c_9 : IVec S_ 32 := constantI S_ 32 0#32
  let main_v26 : IVec S128x512 32 := broadcastInDim S128x512 ![] bcast_S_S128x512 main_c_9
  let main_v27 : IVec S128x512 1 := cmpi .sge main_arg1 main_v26
  let main_c_10 : IVec S_ 32 := constantI S_ 32 1024#32
  let main_v28 : IVec S128x512 32 := broadcastInDim S128x512 ![] bcast_S_S128x512 main_c_10
  let main_v29 : IVec S128x512 1 := cmpi .slt main_arg1 main_v28
  let main_v30 : IVec S128x512 1 := andi main_v27 main_v29
  let main_c_11 : IVec S_ 1 := constantI S_ 1 1#1
  let main_v31 : IVec S_ 1 := (fun x v => Host.reduce IntOp.andi x v reducesTo_S128x512_S_d0_1 h_S_) main_v30 main_c_11
  let main_v32 : IVec S_ 1 := andi main_v25 main_v31
  main_v32

def fn {F : FTy → Type} [FloatOps F] (main_arg0 : IVec S128x512 32) (main_arg1 : IVec S128x512 32) (main_arg2 : FVec F S128x512x512 .f32) (main_arg3 : FVec F S1024x512 .f32) (main_arg4 : FVec F S1024x512 .f32) (main_arg5 : FVec F S512 .f32) : IVec S_ 1 :=
  let main_v0 : FVec F S128x512x512 .f32 := Host.absf main_arg2
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg1 main_v13 main_v16
-- ==== Kernel.lean ====
abbrev S128x512 : Shape := ⟨2, ![128, 512]⟩
abbrev S128x512x512 : Shape := ⟨3, ![128, 512, 512]⟩
abbrev S1024x512 : Shape := ⟨2, ![1024, 512]⟩
abbrev S512 : Shape := ⟨1, ![512]⟩
abbrev S_ : Shape := ⟨0, ![]⟩
abbrev S512x128 : Shape := ⟨2, ![512, 128]⟩
abbrev S512x512 : Shape := ⟨2, ![512, 512]⟩
abbrev S1536x512 : Shape := ⟨2, ![1536, 512]⟩
abbrev S8x128 : Shape := ⟨2, ![8, 128]⟩
abbrev S128x8x512 : Shape := ⟨3, ![128, 8, 512]⟩
abbrev S128x8 : Shape := ⟨2, ![128, 8]⟩
abbrev S128x8x1 : Shape := ⟨3, ![128, 8, 1]⟩
abbrev S128x8x1024 : Shape := ⟨3, ![128, 8, 1024]⟩
abbrev S1024x1024 : Shape := ⟨2, ![1024, 1024]⟩
abbrev S1024x1536 : Shape := ⟨2, ![1024, 1536]⟩
abbrev S1x512 : Shape := ⟨2, ![1, 512]⟩

abbrev nBuf : Space → Nat
  | .hbm => 30
  | .vmem => 10
  | .smem => 0
  | _ => 0

abbrev bufTy : (tb : Table) → Fin (tcTables nBuf tb) → BufTy
  | .hbm, ⟨0, _⟩ => ⟨S128x512, .i32⟩
  | .hbm, ⟨1, _⟩ => ⟨S128x512, .i32⟩
  | .hbm, ⟨2, _⟩ => ⟨S128x512x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S128x512, .i32⟩
  | .hbm, ⟨10, _⟩ => ⟨S128x512, .i32⟩
  | .hbm, ⟨11, _⟩ => ⟨S_, .i32⟩
  | .hbm, ⟨12, _⟩ => ⟨S128x512, .i32⟩
  | .hbm, ⟨13, _⟩ => ⟨S128x512, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S128x512, .i32⟩
  | .hbm, ⟨18, _⟩ => ⟨S128x512, .i32⟩
  | .hbm, ⟨19, _⟩ => ⟨S_, .i32⟩
  | .hbm, ⟨20, _⟩ => ⟨S128x512, .i32⟩
  | .hbm, ⟨21, _⟩ => ⟨S128x512, .i32⟩
  | .hbm, ⟨22, _⟩ => ⟨S512x128, .i32⟩
  | .hbm, ⟨23, _⟩ => ⟨S512x128, .i32⟩
  | .hbm, ⟨24, _⟩ => ⟨S512x512, .f32⟩
  | .hbm, ⟨25, _⟩ => ⟨S512x512, .f32⟩
  | .hbm, ⟨26, _⟩ => ⟨S1024x512, .f32⟩
  | .hbm, ⟨27, _⟩ => ⟨S1536x512, .f32⟩
  | .hbm, ⟨28, _⟩ => ⟨S1536x512, .bf16⟩
  | .hbm, ⟨29, _⟩ => ⟨S128x512x512, .f32⟩
  | .local _ .vmem, ⟨0, _⟩ => ⟨S8x128, .i32⟩
  | .local _ .vmem, ⟨1, _⟩ => ⟨S8x128, .i32⟩
  | .local _ .vmem, ⟨2, _⟩ => ⟨S8x128, .i32⟩
  | .local _ .vmem, ⟨3, _⟩ => ⟨S8x128, .i32⟩
  | .local _ .vmem, ⟨4, _⟩ => ⟨S128x8x512, .f32⟩
  | .local _ .vmem, ⟨5, _⟩ => ⟨S128x8x512, .f32⟩
  | .local _ .vmem, ⟨6, _⟩ => ⟨S1536x512, .bf16⟩
  | .local _ .vmem, ⟨7, _⟩ => ⟨S512, .f32⟩
  | .local _ .vmem, ⟨8, _⟩ => ⟨S128x8x512, .f32⟩
  | .local _ .vmem, ⟨9, _⟩ => ⟨S128x8x512, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x512 : S_.BroadcastsInDim S128x512 (![] : Fin 0 → Fin S128x512.rank)
  transposes_S128x512_S512x128_1_0 : S128x512.Transposes [1, 0] S512x128
  slices_S1024x512_S512x512_0_0 : S1024x512.Slices ![0, 0] S512x512
  slices_S1024x512_S512x512_512_0 : S1024x512.Slices ![512, 0] S512x512
  concatenates_S1024x512_S512x512_S1536x512_d0 : Shape.Concatenates [S1024x512, S512x512] S1536x512 0
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  transposes_S8x128_p1_0_S128x8 : S8x128.Transposes [1, 0] S128x8
  shapeCasts_S128x8_S128x8x1 : S128x8.ShapeCasts S128x8x1
  iota_S128x8x1024_d2_w32 : S128x8x1024.Iotas .tc 32 [2]
  broadcasts_S128x8x1_S128x8x1024 : S128x8x1.Broadcasts S128x8x1024
  natLt_1_32 : 1 < 32
  shapeCasts_S128x8x1024_S1024x1024 : S128x8x1024.ShapeCasts S1024x1024
  inb_S128x8x512_S128x8x512_0_0_0 : ∀ a, (![0, 0, 0] : Fin 3 → Nat) a + S128x8x512.size a ≤ S128x8x512.size a
  h_S128x8x512 : 0 < S128x8x512.numel
  shapeCasts_S128x8x512_S1024x512 : S128x8x512.ShapeCasts S1024x512
  concatenates_S1024x1024_S1024x512_S1024x1536_d1 : Shape.Concatenates [S1024x1024, S1024x512] S1024x1536 1
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S128x8x512 : S1024x512.ShapeCasts S128x8x512
  dot_S1024x512_S512x512_S1024x512_1_0_0_1_n_n_wf : DotDims.WF S1024x512 S512x512 S1024x512 [1] [0] [0] [1] [] []
  dot_S1024x1536_S1536x512_S1024x512_1_0_0_1_n_n_wf : DotDims.WF S1024x1536 S1536x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S512x128.size a
  hwx0_0 : ∀ i : grid0.Coords, EltTy.bits .i32 = 32 ∨ (Rect.block (s := S512x128) S8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S512x128.size a
  hwx0_1 : ∀ i : grid0.Coords, EltTy.bits .i32 = 32 ∨ (Rect.block (s := S512x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8x512.size a ≤ S128x512x512.size a
  hwx0_2 : ∀ i : grid0.Coords, EltTy.bits .f32 = 32 ∨ (Rect.block (s := S128x512x512) S128x8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x512.size a ≤ S1536x512.size a
  hwx0_3 : ∀ i : grid0.Coords, EltTy.bits .bf16 = 32 ∨ (Rect.block (s := S1536x512) S1536x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8x512.size a ≤ S128x512x512.size a
  hwx0_5 : ∀ i : grid0.Coords, EltTy.bits .f32 = 32 ∨ (Rect.block (s := S128x512x512) S128x8x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1536_S1536x512_S1024x512_1_0_0_1_n_n : DotDims S1024x1536 S1536x512 S1024x512 where
  lhsContracting := [1]
  rhsContracting := [0]
  lhsNonContracting := [0]
  rhsNonContracting := [1]
  lhsBatch := []
  rhsBatch := []
  wf := dot_S1024x1536_S1536x512_S1024x512_1_0_0_1_n_n_wf

abbrev win0_0 : Pipeline.Window sig grid0 :=
  Pipeline.Window.ofSpec (Memref.whole main_v2) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1536x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512 : Shape := ⟨2, ![128, 512]⟩
abbrev S128x512x512 : Shape := ⟨3, ![128, 512, 512]⟩
abbrev S1024x512 : Shape := ⟨2, ![1024, 512]⟩
abbrev S512 : Shape := ⟨1, ![512]⟩
abbrev S_ : Shape := ⟨0, ![]⟩
abbrev S128x512x1 : Shape := ⟨3, ![128, 512, 1]⟩
abbrev S128x512x1024 : Shape := ⟨3, ![128, 512, 1024]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S128x512, .i32⟩
  | .hbm, ⟨2, _⟩ => ⟨S128x512x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S_, .i32⟩
  | .hbm, ⟨7, _⟩ => ⟨S128x512, .i32⟩
  | .hbm, ⟨8, _⟩ => ⟨S128x512, .i1⟩
  | .hbm, ⟨9, _⟩ => ⟨S_, .i32⟩
  | .hbm, ⟨10, _⟩ => ⟨S128x512, .i32⟩
  | .hbm, ⟨11, _⟩ => ⟨S128x512, .i32⟩
  | .hbm, ⟨12, _⟩ => ⟨S128x512, .i32⟩
  | .hbm, ⟨13, _⟩ => ⟨S128x512x1, .i32⟩
  | .hbm, ⟨14, _⟩ => ⟨S128x512x512, .f32⟩
  | .hbm, ⟨15, _⟩ => ⟨S_, .i32⟩
  | .hbm, ⟨16, _⟩ => ⟨S128x512, .i32⟩
  | .hbm, ⟨17, _⟩ => ⟨S128x512, .i1⟩
  | .hbm, ⟨18, _⟩ => ⟨S_, .i32⟩
  | .hbm, ⟨19, _⟩ => ⟨S128x512, .i32⟩
  | .hbm, ⟨20, _⟩ => ⟨S128x512, .i32⟩
  | .hbm, ⟨21, _⟩ => ⟨S128x512, .i32⟩
  | .hbm, ⟨22, _⟩ => ⟨S128x512x1, .i32⟩
  | .hbm, ⟨23, _⟩ => ⟨S128x512x512, .f32⟩
  | .hbm, ⟨24, _⟩ => ⟨S128x512x512, .f32⟩
  | .hbm, ⟨25, _⟩ => ⟨S128x512x1024, .f32⟩
  | .hbm, ⟨26, _⟩ => ⟨S128x512x512, .f32⟩
  | .hbm, ⟨27, _⟩ => ⟨S1x1x512, .f32⟩
  | .hbm, ⟨28, _⟩ => ⟨S128x512x512, .f32⟩
  | .hbm, ⟨29, _⟩ => ⟨S128x512x512, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  concatenates_S128x512x512_S128x512x512_S128x512x1024_d2 : Shape.Concatenates [S128x512x512, S128x512x512] S128x512x1024 2
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  gather_S1024x512_S128x512x1_S128x512x512_2_0_n_n_0_2_1512_wf : GatherDims.WF S1024x512 S128x512x1 S128x512x512 [2] [0] [] [0] [] 2 ![1, 512]
  dot_S128x512x1024_S1024x512_S128x512x512_2_0_01_1_n_n_wf : DotDims.WF S128x512x1024 S1024x512 S128x512x512 [2] [0] [0, 1] [1] [] []

variable [Facts₀]

def gather_S1024x512_S128x512x1_S128x512x512_2_0_n_n_0_2_1512 : GatherDims S1024x512 S128x512x1 S128x512x512 where
  offsetDims := [2]
  collapsedSliceDims := [0]
  operandBatchingDims := []
  startIndicesBatchingDims := []
  startIndexMap := [0]
  indexVectorDim := 2
  sliceSizes := ![1, 512]
  wf := gather_S1024x512_S128x512x1_S128x512x512_2_0_n_n_0_2_1512_wf
def dot_S128x512x1024_S1024x512_S128x512x512_2_0_01_1_n_n : DotDims S128x512x1024 S1024x512 S128x512x512 where
  lhsContracting := [2]
  rhsContracting := [0]
  lhsNonContracting := [0, 1]
  rhsNonContracting := [1]
  lhsBatch := []
  rhsBatch := []
  wf := dot_S128x512x1024_S1024x512_S128x512x512_2_0_01_1_n_n_wf

class Facts : Prop extends Facts₀ where

variable [Facts]
-- ==== Proof.Words.lean ====
/-
  Facts about one 32-bit index word that lies in the table's range [0, 1024), read as a signed integer:
  it names a row of the table; the reference's test for a negative index is false on it, so the reference looks up
  exactly that row; the kernel's clamp to [0, 1023] leaves it alone; and the kernel's comparison of the position
  counter with it is the indicator of that row, so that the sum of the two comparisons, converted to a float, is the
  count vector the algebra is stated over.
-/
import Idealize.ShloMosaic.PureOps.Ideal

noncomputable section

namespace Cert.Proof.Words

open Idealize.ShloMosaic

/-- The word is a valid row number of the 1024-row table. -/
def InRange (w : BitVec 32) : Prop := 0 ≤ w.toInt ∧ w.toInt < 1024

theorem toInt_eq_toNat {w : BitVec 32} (h : InRange w) : w.toInt = (w.toNat : Int) := by
  have h1 := h.1
  have hlt := w.isLt
  rw [BitVec.toInt_eq_toNat_cond] at h1 ⊢
  split
  · rfl
  · rename_i hc
    rw [if_neg hc] at h1
    omega

theorem toNat_lt {w : BitVec 32} (h : InRange w) : w.toNat < 1024 := by
  have := toInt_eq_toNat h
  have := h.2
  omega

/-- The row the word names. -/
def row (w : BitVec 32) (h : InRange w) : Fin 1024 := ⟨w.toNat, toNat_lt h⟩

theorem toInt_toNat {w : BitVec 32} (h : InRange w) : w.toInt.toNat = (row w h).val := by
  rw [toInt_eq_toNat h]; rfl

/-- The reference's test "index below zero" is false. -/
theorem cmpi_slt_zero {w : BitVec 32} (h : InRange w) : IntOp.cmpi .slt w 0#32 = 0#1 := by
  have h1 := h.1
  have : w.slt 0#32 = false := by
    simp only [BitVec.slt, decide_eq_false_iff_not, not_lt]
    simpa using h1
  simp [IntOp.cmpi, this]

/-- The kernel's clamp to [0, 1023] is the identity. -/
theorem clip_eq {w : BitVec 32} (h : InRange w) : IntOp.minsi 1023#32 (IntOp.maxsi 0#32 w) = w := by
  have h1 := h.1
  have h2 := h.2
  have e1 : w.slt 0#32 = false := by
    simp only [BitVec.slt, decide_eq_false_iff_not, not_lt]
    simpa using h1
  have e2 : (1023#32 : BitVec 32).slt w = false := by
    simp only [BitVec.slt, decide_eq_false_iff_not, not_lt]
    have : (1023#32 : BitVec 32).toInt = 1023 := by decide
    omega
  simp [IntOp.minsi, IntOp.maxsi, e1, e2]

/-- The position counter's word at position l equals the index word exactly at the row it names. -/
theorem cmpi_eq_iota {w : BitVec 32} (h : InRange w) (l : Fin 1024) :
    IntOp.cmpi .eq (BitVec.ofNat 32 l.val) w = if l = row w h then 1#1 else 0#1 := by
  have hl : l.val < 2 ^ 32 := by have := l.isLt; omega
  by_cases hc : l = row w h
  · rw [if_pos hc]
    have : BitVec.ofNat 32 l.val = w := by
      apply BitVec.eq_of_toNat_eq
      rw [BitVec.toNat_ofNat, Nat.mod_eq_of_lt hl, hc]; rfl
    simp [IntOp.cmpi, this]
  · rw [if_neg hc]
    have : BitVec.ofNat 32 l.val ≠ w := by
      intro e
      apply hc
      apply Fin.ext
      have := congrArg BitVec.toNat e
      rw [BitVec.toNat_ofNat, Nat.mod_eq_of_lt hl] at this
      exact this
    have hb : (BitVec.ofNat 32 l.val == w) = false := beq_eq_false_iff_ne.mpr this
    simp [IntOp.cmpi, hb]

/-- The count-vector entry at position l: the two comparisons widened, added, and converted, as a real number. -/
theorem onehot_entry {w1 w2 : BitVec 32} (h1 : InRange w1) (h2 : InRange w2) (l : Fin 1024) :
    (((IntOp.addi ((IntOp.cmpi .eq (BitVec.ofNat 32 l.val) w1).setWidth 32)
        ((IntOp.cmpi .eq (BitVec.ofNat 32 l.val) w2).setWidth 32)).toInt : ℝ) : EReal)
      = (((if l = row w1 h1 then (1 : ℝ) else 0) + (if l = row w2 h2 then (1 : ℝ) else 0) : ℝ) : EReal) := by
  rw [cmpi_eq_iota h1, cmpi_eq_iota h2]
  congr 1
  by_cases c1 : l = row w1 h1 <;> by_cases c2 : l = row w2 h2
  · rw [if_pos c1, if_pos c2, if_pos c1, if_pos c2]
    have : (IntOp.addi ((1#1 : BitVec 1).setWidth 32) ((1#1 : BitVec 1).setWidth 32)).toInt = 2 := by decide
    rw [this]; norm_num
  · rw [if_pos c1, if_neg c2, if_pos c1, if_neg c2]
    have : (IntOp.addi ((1#1 : BitVec 1).setWidth 32) ((0#1 : BitVec 1).setWidth 32)).toInt = 1 := by decide
    rw [this]; norm_num
  · rw [if_neg c1, if_pos c2, if_neg c1, if_pos c2]
    have : (IntOp.addi ((0#1 : BitVec 1).setWidth 32) ((1#1 : BitVec 1).setWidth 32)).toInt = 1 := by decide
    rw [this]; norm_num
  · rw [if_neg c1, if_neg c2, if_neg c1, if_neg c2]
    have : (IntOp.addi ((0#1 : BitVec 1).setWidth 32) ((0#1 : BitVec 1).setWidth 32)).toInt = 0 := by decide
    rw [this]; norm_num

end Cert.Proof.Words

end
-- ==== Proof.PreFacts.lean ====
/-
  What the precondition says, element by element.

  The printed precondition is a conjunction of six "for all entries" tests: the absolute value of every entry of
  the four float inputs is below +infinity, and every entry of the two index inputs is at least 0 and below 1024.
  From it: every float entry is a real number (neither infinity), and every index entry names a row of the table.
-/
import proofs.«407743_j41472204210998_3_alg».proof.Pre_finite_inputs
import proofs.«407743_j41472204210998_3_alg».proof.Proof.Gen.Pre_finite_inputs
import proofs.«407743_j41472204210998_3_alg».proof.Proof.Words
import Idealize.ShloMosaic.Lib.ReduceAll
import Idealize.ShloMosaic.Lib.ValueIdx
import Idealize.ShloMosaic.Lib.StableHlo.Predicate
import Idealize.ShloMosaic.PureOps.Ideal.Laws

noncomputable section

namespace Cert.Proof.PreFacts

open Cert.Pre_finite_inputs Cert.Pre_finite_inputs.Gen Idealize.ShloMosaic Idealize.ShloMosaic.ValueIdx
open Idealize.ShloMosaic.StableHlo Cert.Proof.Words

instance : Subsingleton S_.Idx := ⟨fun a b => funext fun d => d.elim0⟩

/-- An extended real whose absolute value is strictly below +infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have h' : max x (-x) < (⊤ : EReal) := by
    have := (Predicate.ofBool_eq_one_iff _).1 h
    exact of_decide_eq_true this
  induction x using EReal.rec with
  | bot => simp at h'
  | top => simp at h'
  | coe r => exact ⟨r, rfl⟩

/-- An index word that passes "at least 0" and "below 1024" (both signed) is in range. -/
theorem inRange_of_tests (w : BitVec 32) (hge : IntOp.cmpi .sge w 0#32 = 1#1) (hlt : IntOp.cmpi .slt w 1024#32 = 1#1) :
    InRange w := by
  have g1 : ((0#32 : BitVec 32).sle w) = true := (Predicate.ofBool_eq_one_iff _).1 hge
  have g2 : (w.slt 1024#32) = true := (Predicate.ofBool_eq_one_iff _).1 hlt
  have e0 : (0#32 : BitVec 32).toInt = 0 := by decide
  have e1 : (1024#32 : BitVec 32).toInt = 1024 := by decide
  simp only [BitVec.sle, decide_eq_true_eq, e0] at g1
  simp only [BitVec.slt, decide_eq_true_eq, e1] at g2
  exact ⟨g1, g2⟩

/-- THE PRECONDITION DECODED. -/
theorem decode (a0 a1 : IVec S128x512 32) (a2 : FVec Ideal S128x512x512 .f32) (a3 a4 : FVec Ideal S1024x512 .f32)
    (a5 : FVec Ideal S512 .f32) (h : fn (F := Ideal) a0 a1 a2 a3 a4 a5 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, InRange (a0 i)) ∧ (∀ i, InRange (a1 i)) := by
  have h0 := congrFun h ix0
  dsimp only [fn, fn_part1, andi] at h0
  obtain ⟨h5, hB⟩ := IntOp.andi_eq_one.1 h0
  obtain ⟨h4, hA⟩ := IntOp.andi_eq_one.1 h5
  obtain ⟨h3, hb⟩ := IntOp.andi_eq_one.1 h4
  obtain ⟨h2, hW⟩ := IntOp.andi_eq_one.1 h3
  obtain ⟨hl, hE⟩ := IntOp.andi_eq_one.1 h2
  refine ⟨fun i => ?_, fun i => ?_, fun i => ?_, fun i => ?_, fun i => ?_, fun i => ?_⟩
  · exact real_of_abs_lt_inf _ (Host.reduce_andi_all _ _ _ _ _ hl i)
  · exact real_of_abs_lt_inf _ (Host.reduce_andi_all _ _ _ _ _ hE i)
  · exact real_of_abs_lt_inf _ (Host.reduce_andi_all _ _ _ _ _ hW i)
  · exact real_of_abs_lt_inf _ (Host.reduce_andi_all _ _ _ _ _ hb i)
  · have ht := Host.reduce_andi_all _ _ _ _ _ hA i
    obtain ⟨t1, t2⟩ := IntOp.andi_eq_one.1 ht
    exact inRange_of_tests _ t1 t2
  · have ht := Host.reduce_andi_all _ _ _ _ _ hB i
    obtain ⟨t1, t2⟩ := IntOp.andi_eq_one.1 ht
    exact inRange_of_tests _ t1 t2

end Cert.Proof.PreFacts

end
-- ==== Proof.KernelBody.lean ====
/-
  The kernel body's result read at one element (b, s, d) of its 128 x 8 x 512 output block.

  The body transposes its two 8 x 128 index blocks to 128 x 8, compares each against a position counter running along a
  new last axis of length 1024, widens and adds the two comparisons (a count vector per row (b, s)), merges (b, s)
  into one row axis of length 1024, converts to float, appends the latent block (merged the same way) along the
  feature axis, multiplies by the 1536 x 512 weight block, adds the bias row and splits the row axis back into (b, s).
  Read at (b, s, d) that is: the sum over the 1536 contraction positions j of (the count of index words equal to j,
  for j below 1024; the latent feature j - 1024 otherwise) times the weight block's entry (j, d), plus the bias at d.
-/
import proofs.«407743_j41472204210998_3_alg».proof.Proof.Gen.KernelIdeal
import proofs.«407743_j41472204210998_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Proof.KernelBody

open Cert.KernelIdeal Cert.KernelIdeal.Facts₀ Idealize.ShloMosaic Idealize.ShloMosaic.ValueIdx
open Cert.KernelIdeal.Gen (k0_pay1)

/-- Row (b, s) of the merged row axis. -/
def mrow (b : Fin 128) (s : Fin 8) : Fin 1024 := ⟨b.val * 8 + s.val, by omega⟩

/-- The index word compared at (b, s, l): the index block's entry (s, b), whatever the position l. -/
theorem word_apply (x : IVec S8x128 32) (b : Fin 128) (s : Fin 8) (l : Fin 1024) :
    broadcastTo S128x8x1024 (shapeCast S128x8x1 (transpose S128x8 [1, 0] (shapeCast S8x128 x shapeCasts_S8x128_S8x128)
        transposes_S8x128_p1_0_S128x8) shapeCasts_S128x8_S128x8x1) broadcasts_S128x8x1_S128x8x1024 (ix3 b s l)
      = x (ix2 s b) := by
  refine (broadcastTo_apply _ _ (ix3 b s l) (ix3 b s (0 : Fin 1)) (fun a => ?_)).trans ?_
  · match a with
    | ⟨0, _⟩ => show b.val = if (128 : Nat) = 1 then 0 else b.val; rw [if_neg (by decide)]
    | ⟨1, _⟩ => show s.val = if (8 : Nat) = 1 then 0 else s.val; rw [if_neg (by decide)]
    | ⟨2, _⟩ => show 0 = if (1 : Nat) = 1 then 0 else l.val; rw [if_pos rfl]
  refine (shapeCast_apply _ _ (ix3 b s (0 : Fin 1)) (ix2 b s) ?_).trans ?_
  · rw [Shape.rowMajor_val_two, Shape.rowMajor_val_three]
    show b.val * 8 + s.val = (b.val * 8 + s.val) * 1 + 0
    omega
  refine (transpose_apply _ _ _ (ix2 b s) (ix2 s b) (fun a => ?_)).trans ?_
  · match a with
    | ⟨0, _⟩ => rfl
    | ⟨1, _⟩ => rfl
  rw [shapeCast_self]

/-- The count vector's entry at row (b, s), position l: the two comparisons of the position with the two index words,
    widened, added and converted. -/
theorem count_apply (x0 x1 : IVec S8x128 32) (b : Fin 128) (s : Fin 8) (l : Fin 1024) :
    (sitofp .bf16 (shapeCast S1024x1024
        (addi
          (extui 32 (cmpi .eq (iota .tc S128x8x1024 32 [2] iota_S128x8x1024_d2_w32)
            (broadcastTo S128x8x1024 (shapeCast S128x8x1 (transpose S128x8 [1, 0] (shapeCast S8x128 x0 shapeCasts_S8x128_S8x128)
              transposes_S8x128_p1_0_S128x8) shapeCasts_S128x8_S128x8x1) broadcasts_S128x8x1_S128x8x1024)) natLt_1_32)
          (extui 32 (cmpi .eq (iota .tc S128x8x1024 32 [2] iota_S128x8x1024_d2_w32)
            (broadcastTo S128x8x1024 (shapeCast S128x8x1 (transpose S128x8 [1, 0] (shapeCast S8x128 x1 shapeCasts_S8x128_S8x128)
              transposes_S8x128_p1_0_S128x8) shapeCasts_S128x8_S128x8x1) broadcasts_S128x8x1_S128x8x1024)) natLt_1_32))
        shapeCasts_S128x8x1024_S1024x1024) : FVec Ideal S1024x1024 .bf16) (ix2 (mrow b s) l)
      = (((IntOp.addi ((IntOp.cmpi .eq (BitVec.ofNat 32 l.val) (x0 (ix2 s b))).setWidth 32)
            ((IntOp.cmpi .eq (BitVec.ofNat 32 l.val) (x1 (ix2 s b))).setWidth 32)).toInt : ℝ) : EReal) := by
  show (((BitVec.toInt (shapeCast S1024x1024 (_ : IVec S128x8x1024 32) shapeCasts_S128x8x1024_S1024x1024 (ix2 (mrow b s) l)) : ℤ) : ℝ) : EReal) = _
  refine congrArg (fun w : BitVec 32 => ((w.toInt : ℝ) : EReal)) ?_
  refine (shapeCast_apply _ _ (ix2 (mrow b s) l) (ix3 b s l) ?_).trans ?_
  · rw [Shape.rowMajor_val_two, Shape.rowMajor_val_three]
    show (b.val * 8 + s.val) * 1024 + l.val = (b.val * 8 + s.val) * 1024 + l.val
    rfl
  show IntOp.addi ((IntOp.cmpi .eq (iota .tc S128x8x1024 32 [2] iota_S128x8x1024_d2_w32 (ix3 b s l)) _).setWidth 32)
      ((IntOp.cmpi .eq (iota .tc S128x8x1024 32 [2] iota_S128x8x1024_d2_w32 (ix3 b s l)) _).setWidth 32) = _
  rw [iota_single_apply, word_apply x0 b s l, word_apply x1 b s l]

/-- The left operand of the product at row r, position j: the count vector below 1024, the latent features from there. -/
theorem lhs_apply (A : FVec Ideal S1024x1024 .bf16) (B : FVec Ideal S1024x512 .bf16) (r : Fin 1024) (j : Fin 1536) :
    concatenate S1024x1536 1 [⟨S1024x1024, A⟩, ⟨S1024x512, B⟩] concatenates_S1024x1024_S1024x512_S1024x1536_d1 (ix2 r j)
      = if h : j.val < 1024 then A (ix2 r (⟨j.val, h⟩ : Fin 1024)) else B (ix2 r (⟨j.val - 1024, by omega⟩ : Fin 512)) := by
  by_cases hj : j.val < 1024
  · rw [dif_pos hj]
    refine concatenate_pair_apply_left (t := S1024x1536) (s₁ := S1024x1024) (s₂ := S1024x512) (1 : Fin 2) _ _ _ _ rfl
      (ix2 r (⟨j.val, hj⟩ : Fin 1024)) (fun a => ?_)
    match a with
    | ⟨0, _⟩ => rfl
    | ⟨1, _⟩ => rfl
  · rw [dif_neg hj]
    refine concatenate_pair_apply_right (t := S1024x1536) (s₁ := S1024x1024) (s₂ := S1024x512) (1 : Fin 2) _ _ _ _ rfl rfl
      (ix2 r (⟨j.val - 1024, by omega⟩ : Fin 512)) (fun a ha => ?_) ?_
    · match a with
      | ⟨0, _⟩ => rfl
      | ⟨1, _⟩ => exact absurd rfl ha
    · show (j.val - 1024) + 1024 = j.val
      omega

/-! The product's operand indices at an output index and a contraction index, axis by axis. -/

theorem lhs_axis0 (i : S1024x512.Idx) (q : dot_S1024x1536_S1536x512_S1024x512_1_0_0_1_n_n.contr.Idx) :
    (dot_S1024x1536_S1536x512_S1024x512_1_0_0_1_n_n.lhsIdx i q 0).val = (i 0).val := by
  unfold DotDims.lhsIdx
  rw [dif_neg (show ¬(0 : Fin S1024x1536.rank) ∈ dot_S1024x1536_S1536x512_S1024x512_1_0_0_1_n_n.lhsBatch by decide),
    dif_pos (show (0 : Fin S1024x1536.rank) ∈ dot_S1024x1536_S1536x512_S1024x512_1_0_0_1_n_n.lhsNonContracting by decide)]
  rfl
theorem lhs_axis1 (i : S1024x512.Idx) (q : dot_S1024x1536_S1536x512_S1024x512_1_0_0_1_n_n.contr.Idx) :
    (dot_S1024x1536_S1536x512_S1024x512_1_0_0_1_n_n.lhsIdx i q 1).val = (q ⟨0, by decide⟩).val :=
  dot_S1024x1536_S1536x512_S1024x512_1_0_0_1_n_n.lhsIdx_val_of_single rfl i q
theorem rhs_axis0 (i : S1024x512.Idx) (q : dot_S1024x1536_S1536x512_S1024x512_1_0_0_1_n_n.contr.Idx) :
    (dot_S1024x1536_S1536x512_S1024x512_1_0_0_1_n_n.rhsIdx i q 0).val = (q ⟨0, by decide⟩).val :=
  dot_S1024x1536_S1536x512_S1024x512_1_0_0_1_n_n.rhsIdx_val_of_single rfl i q
theorem rhs_axis1 (i : S1024x512.Idx) (q : dot_S1024x1536_S1536x512_S1024x512_1_0_0_1_n_n.contr.Idx) :
    (dot_S1024x1536_S1536x512_S1024x512_1_0_0_1_n_n.rhsIdx i q 1).val = (i 1).val := by
  unfold DotDims.rhsIdx
  rw [dif_neg (show ¬(1 : Fin S1536x512.rank) ∈ dot_S1024x1536_S1536x512_S1024x512_1_0_0_1_n_n.rhsBatch by decide),
    dif_pos (show (1 : Fin S1536x512.rank) ∈ dot_S1024x1536_S1536x512_S1024x512_1_0_0_1_n_n.rhsNonContracting by decide)]
  rfl

/-- The product into a zero accumulator, at (r, d): the sum over the 1536 contraction positions. -/
theorem product_apply (L : FVec Ideal S1024x1536 .bf16) (R : FVec Ideal S1536x512 .bf16) (r : Fin 1024) (d : Fin 512) :
    matmul dot_S1024x1536_S1536x512_S1024x512_1_0_0_1_n_n none L R (constant S1024x512 .f32 0x00000000#32) (ix2 r d)
      = ∑ j : Fin 1536, L (ix2 r j) * R (ix2 j d) := by
  simp only [matmul]
  rw [Ideal.matmul_constant_zero_apply,
    ← Equiv.sum_comp (ValueIdx.contrEquiv1 dot_S1024x1536_S1536x512_S1024x512_1_0_0_1_n_n 1536 rfl rfl).symm]
  refine Finset.sum_congr rfl fun k _ => ?_
  have hk := ValueIdx.contrEquiv1_symm_val dot_S1024x1536_S1536x512_S1024x512_1_0_0_1_n_n 1536 rfl rfl k
  have el : dot_S1024x1536_S1536x512_S1024x512_1_0_0_1_n_n.lhsIdx (ix2 r d)
      ((ValueIdx.contrEquiv1 dot_S1024x1536_S1536x512_S1024x512_1_0_0_1_n_n 1536 rfl rfl).symm k) = ix2 r k :=
    funext fun a => Fin.ext (by
      match a with
      | ⟨0, _⟩ => exact lhs_axis0 _ _
      | ⟨1, _⟩ => exact (lhs_axis1 _ _).trans hk)
  have er : dot_S1024x1536_S1536x512_S1024x512_1_0_0_1_n_n.rhsIdx (ix2 r d)
      ((ValueIdx.contrEquiv1 dot_S1024x1536_S1536x512_S1024x512_1_0_0_1_n_n 1536 rfl rfl).symm k) = ix2 k d :=
    funext fun a => Fin.ext (by
      match a with
      | ⟨0, _⟩ => exact (rhs_axis0 _ _).trans hk
      | ⟨1, _⟩ => exact rhs_axis1 _ _)
  rw [el, er]

/-- THE BODY'S RESULT AT (b, s, d). -/
theorem pay_apply (x0 x1 : IVec S8x128 32) (x2 : FVec Ideal S128x8x512 .f32) (x3 : FVec Ideal S1536x512 .bf16)
    (x4 : FVec Ideal S512 .f32) (b : Fin 128) (s : Fin 8) (d : Fin 512) :
    k0_pay1 (F := Ideal) x0 x1 x2 x3 x4 (ix3 b s d)
      = (∑ j : Fin 1536,
          (if h : j.val < 1024 then
              (((IntOp.addi ((IntOp.cmpi .eq (BitVec.ofNat 32 j.val) (x0 (ix2 s b))).setWidth 32)
                ((IntOp.cmpi .eq (BitVec.ofNat 32 j.val) (x1 (ix2 s b))).setWidth 32)).toInt : ℝ) : EReal)
            else x2 (ix3 b s (⟨j.val - 1024, by omega⟩ : Fin 512))) * x3 (ix2 j d)) + x4 (ix1 d) := by
  unfold k0_pay1
  refine (shapeCast_apply _ _ (ix3 b s d) (ix2 (mrow b s) d) ?_).trans ?_
  · rw [Shape.rowMajor_val_two, Shape.rowMajor_val_three]
    show (b.val * 8 + s.val) * 512 + d.val = (b.val * 8 + s.val) * 512 + d.val
    rfl
  show matmul dot_S1024x1536_S1536x512_S1024x512_1_0_0_1_n_n none _ _ (constant S1024x512 .f32 0x00000000#32) (ix2 (mrow b s) d)
      + broadcastTo S1024x512 _ broadcasts_S1x512_S1024x512 (ix2 (mrow b s) d) = _
  congr 1
  · refine (product_apply _ _ (mrow b s) d).trans ?_
    refine Finset.sum_congr rfl fun j _ => ?_
    congr 1
    · refine (lhs_apply _ _ (mrow b s) j).trans ?_
      by_cases hj : j.val < 1024
      · rw [dif_pos hj, dif_pos hj]
        exact count_apply x0 x1 b s ⟨j.val, hj⟩
      · rw [dif_neg hj, dif_neg hj]
        show shapeCast S1024x512 x2 shapeCasts_S128x8x512_S1024x512 (ix2 (mrow b s) (⟨j.val - 1024, by omega⟩ : Fin 512)) = _
        refine shapeCast_apply _ _ _ (ix3 b s (⟨j.val - 1024, by omega⟩ : Fin 512)) ?_
        rw [Shape.rowMajor_val_two, Shape.rowMajor_val_three]
        show (b.val * 8 + s.val) * 512 + (j.val - 1024) = (b.val * 8 + s.val) * 512 + (j.val - 1024)
        rfl
    · exact congrFun (shapeCast_self x3 shapeCasts_S1536x512_S1536x512) (ix2 j d)
  · refine (broadcastTo_1b_ab_apply _ _ (mrow b s) d).trans ?_
    exact shapeCast_a_1a_apply x4 _ 0 d

end Cert.Proof.KernelBody

end
-- ==== Proof.KernelHost.lean ====
/-
  The arrays the host code builds for the kernel, read at one element, in terms of the program's arguments.

  Before the kernel runs, the host clamps each index array to [0, 1023] and transposes it (so the kernel's index
  windows are 512 x 128), and builds the 1536 x 512 weight array: its first 1024 rows are the position table multiplied
  into the first 512 rows of the weight matrix, its last 512 rows are the last 512 rows of the weight matrix; the
  change of float format on top is the identity on the extended reals.
-/
import proofs.«407743_j41472204210998_3_alg».proof.Proof.Gen.KernelIdeal.Frame
import proofs.«407743_j41472204210998_3_alg».proof.Proof.Words
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Proof.KernelHost

open Cert.KernelIdeal Cert.KernelIdeal.Facts₀ Idealize.ShloMosaic Idealize.ShloMosaic.TcCoe Idealize.SL.Sem
open Idealize.ShloMosaic.StableHlo Idealize.ShloMosaic.ValueIdx Cert.Proof.Words
open Cert.KernelIdeal.Gen (V hostOps0 hostOps0_1 hostOps0_2 hostOps0_3 hostOps0_4)

variable (m : (ℓ : Loc nD τ sig) → Buf (Elt Ideal) ℓ)

/-- Device c's argument arrays: the two index arrays, the latent array, the position table, the weight matrix, the bias. -/
abbrev a0 (c : Dev nD) : IVec S128x512 32 := m ((c : Thread nD τ).loc main_arg0)
abbrev a1 (c : Dev nD) : IVec S128x512 32 := m ((c : Thread nD τ).loc main_arg1)
abbrev a2 (c : Dev nD) : FVec Ideal S128x512x512 .f32 := m ((c : Thread nD τ).loc main_arg2)
abbrev a3 (c : Dev nD) : FVec Ideal S1024x512 .f32 := m ((c : Thread nD τ).loc main_arg3)
abbrev a4 (c : Dev nD) : FVec Ideal S1024x512 .f32 := m ((c : Thread nD τ).loc main_arg4)
abbrev a5 (c : Dev nD) : FVec Ideal S512 .f32 := m ((c : Thread nD τ).loc main_arg5)

/-- The first index window's array: the first index array clamped, then transposed. -/
theorem V_idx0 (c : Dev nD) : (V m c main_v2 : S512x128.Idx → BitVec 32)
    = transpose S512x128 [1, 0]
        (minsi (broadcastInDim S128x512 ![] bcast_S_S128x512 (constantI S_ 32 1023#32))
          (maxsi (broadcastInDim S128x512 ![] bcast_S_S128x512 (constantI S_ 32 0#32)) (a0 m c)))
        transposes_S128x512_S512x128_1_0 := by
  dsimp only [V]
  simp only [hostOps0, hostOps0_1, hostOps0_2, hostOps0_3, hostOps0_4, List.flatten_cons, List.flatten_nil, List.append_nil,
    List.cons_append, List.nil_append]
  after_results <;> rfl

/-- The second index window's array, likewise. -/
theorem V_idx1 (c : Dev nD) : (V m c main_v3 : S512x128.Idx → BitVec 32)
    = transpose S512x128 [1, 0]
        (minsi (broadcastInDim S128x512 ![] bcast_S_S128x512 (constantI S_ 32 1023#32))
          (maxsi (broadcastInDim S128x512 ![] bcast_S_S128x512 (constantI S_ 32 0#32)) (a1 m c)))
        transposes_S128x512_S512x128_1_0 := by
  dsimp only [V]
  simp only [hostOps0, hostOps0_1, hostOps0_2, hostOps0_3, hostOps0_4, List.flatten_cons, List.flatten_nil, List.append_nil,
    List.cons_append, List.nil_append]
  after_results <;> rfl

/-- The weight window's array. -/
theorem V_wcat (c : Dev nD) : (V m c main_v8 : S1536x512.Idx → EReal)
    = truncf .bf16 (concatenate S1536x512 0
        [⟨S1024x512, Host.dotGeneral dot_S1024x512_S512x512_S1024x512_1_0_0_1_n_n none (a3 m c)
            (extractStridedSlice S512x512 ![0, 0] (a4 m c) slices_S1024x512_S512x512_0_0)⟩,
          ⟨S512x512, extractStridedSlice S512x512 ![512, 0] (a4 m c) slices_S1024x512_S512x512_512_0⟩]
        concatenates_S1024x512_S512x512_S1536x512_d0) bitsLt_bf16_f32 := by
  dsimp only [V]
  simp only [hostOps0, hostOps0_1, hostOps0_2, hostOps0_3, hostOps0_4, List.flatten_cons, List.flatten_nil, List.append_nil,
    List.cons_append, List.nil_append]
  after_results <;> rfl

/-- Entry (q, b) of the first index window's array is entry (b, q) of the first index array, when that is in range. -/
theorem idx0_apply (c : Dev nD) (q : Fin 512) (b : Fin 128) (h : InRange (a0 m c (ix2 b q))) :
    (V m c main_v2 : S512x128.Idx → BitVec 32) (ix2 q b) = a0 m c (ix2 b q) := by
  refine (congrFun (V_idx0 m c) (ix2 q b)).trans ?_
  refine (transpose_apply _ _ _ (ix2 q b) (ix2 b q) (fun a => ?_)).trans ?_
  · match a with
    | ⟨0, _⟩ => rfl
    | ⟨1, _⟩ => rfl
  exact clip_eq h

/-- Entry (q, b) of the second index window's array, likewise. -/
theorem idx1_apply (c : Dev nD) (q : Fin 512) (b : Fin 128) (h : InRange (a1 m c (ix2 b q))) :
    (V m c main_v3 : S512x128.Idx → BitVec 32) (ix2 q b) = a1 m c (ix2 b q) := by
  refine (congrFun (V_idx1 m c) (ix2 q b)).trans ?_
  refine (transpose_apply _ _ _ (ix2 q b) (ix2 b q) (fun a => ?_)).trans ?_
  · match a with
    | ⟨0, _⟩ => rfl
    | ⟨1, _⟩ => rfl
  exact clip_eq h

/-! The host product's operand indices, axis by axis. -/

theorem lhs_axis0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem lhs_axis1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_axis0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_axis1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The table multiplied into a 512 x 512 matrix, at (l, d): the sum over the 512 features. -/
theorem table_product_apply (E : FVec Ideal S1024x512 .f32) (T : FVec Ideal S512x512 .f32) (l : Fin 1024) (d : Fin 512) :
    Host.dotGeneral dot_S1024x512_S512x512_S1024x512_1_0_0_1_n_n none E T (ix2 l d)
      = ∑ k : Fin 512, E (ix2 l k) * T (ix2 k d) := by
  simp only [Host.dotGeneral]
  rw [Ideal.dotGeneral_apply,
    ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 l d)
      ((ValueIdx.contrEquiv1 dot_S1024x512_S512x512_S1024x512_1_0_0_1_n_n 512 rfl rfl).symm k) = ix2 l k :=
    funext fun a => Fin.ext (by
      match a with
      | ⟨0, _⟩ => exact lhs_axis0 _ _
      | ⟨1, _⟩ => exact (lhs_axis1 _ _).trans hk)
  have er : dot_S1024x512_S512x512_S1024x512_1_0_0_1_n_n.rhsIdx (ix2 l d)
      ((ValueIdx.contrEquiv1 dot_S1024x512_S512x512_S1024x512_1_0_0_1_n_n 512 rfl rfl).symm k) = ix2 k d :=
    funext fun a => Fin.ext (by
      match a with
      | ⟨0, _⟩ => exact (rhs_axis0 _ _).trans hk
      | ⟨1, _⟩ => exact rhs_axis1 _ _)
  rw [el, er]

/-- Entry (j, d) of the weight window's array: for j below 1024 the table's row j contracted against the first 512 rows
    of the weight matrix's column d; from there on the weight matrix's entry (j - 512, d). -/
theorem wcat_apply (c : Dev nD) (j : Fin 1536) (d : Fin 512) :
    (V m c main_v8 : S1536x512.Idx → EReal) (ix2 j d)
      = if h : j.val < 1024 then
          ∑ k : Fin 512, a3 m c (ix2 (⟨j.val, h⟩ : Fin 1024) k) * a4 m c (ix2 (⟨k.val, by omega⟩ : Fin 1024) d)
        else a4 m c (ix2 (⟨j.val - 512, by omega⟩ : Fin 1024) d) := by
  refine (congrFun (V_wcat m c) (ix2 j d)).trans ?_
  refine (ValueIdx.truncf_apply (ψ := .bf16) (φ := .f32) _ bitsLt_bf16_f32 (ix2 j d)).trans ?_
  by_cases hj : j.val < 1024
  · rw [dif_pos hj]
    refine (concatenate_pair_apply_left (t := S1536x512) (s₁ := S1024x512) (s₂ := S512x512) (0 : Fin 2) _ _ _ _ rfl
      (ix2 (⟨j.val, hj⟩ : Fin 1024) d) (fun a => ?_)).trans ?_
    · match a with
      | ⟨0, _⟩ => rfl
      | ⟨1, _⟩ => rfl
    refine (table_product_apply _ _ ⟨j.val, hj⟩ d).trans ?_
    refine Finset.sum_congr rfl fun k _ => ?_
    congr 1
    refine extractStridedSlice_apply _ _ _ (ix2 k d) (ix2 (⟨k.val, by omega⟩ : Fin 1024) d) (fun a => ?_)
    match a with
    | ⟨0, _⟩ => show k.val = 0 + k.val; omega
    | ⟨1, _⟩ => show d.val = 0 + d.val; omega
  · rw [dif_neg hj]
    refine (concatenate_pair_apply_right (t := S1536x512) (s₁ := S1024x512) (s₂ := S512x512) (0 : Fin 2) _ _ _ _ rfl rfl
      (ix2 (⟨j.val - 1024, by omega⟩ : Fin 512) d) (fun a ha => ?_) ?_).trans ?_
    · match a with
      | ⟨0, _⟩ => exact absurd rfl ha
      | ⟨1, _⟩ => rfl
    · show (j.val - 1024) + 1024 = j.val
      omega
    refine extractStridedSlice_apply _ _ _ (ix2 (⟨j.val - 1024, by omega⟩ : Fin 512) d) (ix2 (⟨j.val - 512, by omega⟩ : Fin 1024) d) (fun a => ?_)
    match a with
    | ⟨0, _⟩ => show j.val - 512 = 512 + (j.val - 1024); omega
    | ⟨1, _⟩ => show d.val = 0 + d.val; omega

end Cert.Proof.KernelHost

end
-- ==== Proof.RefRead.lean ====
/-
  The reference's result read at one element (b, p, d).

  The reference looks up two rows of the position table - one per index array, after mapping a negative index to the
  end of the table, which does nothing to an index in range - adds them, appends the latent features, contracts the
  1024 resulting features against the weight matrix and adds the bias. Read at (b, p, d) that is the sum over the 1024
  contraction positions k of (the two looked-up rows' entries at k, for k below 512; the latent feature k - 512
  otherwise) times the weight W[k, d], plus the bias b[d].
-/
import proofs.«407743_j41472204210998_3_alg».proof.Proof.Gen.ReferenceIdeal.Read
import proofs.«407743_j41472204210998_3_alg».proof.Proof.Words
import Idealize.ShloMosaic.Lib.Pipeline.Value
import Idealize.ShloMosaic.Lib.ValueIdx
import Idealize.ShloMosaic.PureOps.Ideal.Laws

noncomputable section

open scoped BigOperators

namespace Cert.Proof.RefRead

open Cert.ReferenceIdeal Cert.ReferenceIdeal.Gen Cert.ReferenceIdeal.Read Idealize.ShloMosaic Idealize.ShloMosaic.ValueIdx
open Cert.Proof.Words

/-- The table lookup read at (b, p, e): the table at the row the start index names - read signed and clamped to the
    table - and column e. -/
theorem gather_row_apply {α : Type} (x : S1024x512.Idx → α) (idx : IVec S128x512x1 32) (b : Fin 128) (p : Fin 512) (e : Fin 512) :
    Host.gather gather_S1024x512_S128x512x1_S128x512x512_2_0_n_n_0_2_1512 x idx (ix3 b p e)
      = x (ix2 (⟨min (idx (ix3 b p (0 : Fin 1))).toInt.toNat 1023, by omega⟩ : Fin 1024) e) := by
  unfold Host.gather
  congr 1
  funext a
  refine Fin.ext ?_
  match a with
  | ⟨0, _⟩ =>
    show gather_S1024x512_S128x512x1_S128x512x512_2_0_n_n_0_2_1512.start (ix3 b p e) idx 0
        + gather_S1024x512_S128x512x1_S128x512x512_2_0_n_n_0_2_1512.batchCoord (ix3 b p e) 0
        + gather_S1024x512_S128x512x1_S128x512x512_2_0_n_n_0_2_1512.offCoord (ix3 b p e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x512_S128x512x1_S128x512x512_2_0_n_n_0_2_1512.startIndexMap from List.mem_singleton.mpr rfl)]
    have hsi : gather_S1024x512_S128x512x1_S128x512x512_2_0_n_n_0_2_1512.siIdx (ix3 b p e)
        ⟨List.idxOf (0 : Fin 2) gather_S1024x512_S128x512x1_S128x512x512_2_0_n_n_0_2_1512.startIndexMap,
          List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S1024x512_S128x512x1_S128x512x512_2_0_n_n_0_2_1512.start (ix3 b p e) idx 1
        + gather_S1024x512_S128x512x1_S128x512x512_2_0_n_n_0_2_1512.batchCoord (ix3 b p e) 1
        + gather_S1024x512_S128x512x1_S128x512x512_2_0_n_n_0_2_1512.offCoord (ix3 b p e) 1 = e.val
    rw [GatherDims.batchCoord_eq_zero _ _ _ List.not_mem_nil]
    unfold GatherDims.start
    rw [dif_neg (show ¬ (1 : Fin 2) ∈ gather_S1024x512_S128x512x1_S128x512x512_2_0_n_n_0_2_1512.startIndexMap by decide)]
    unfold GatherDims.offCoord
    rw [dif_pos (show (1 : Fin 2) ∈ gather_S1024x512_S128x512x1_S128x512x512_2_0_n_n_0_2_1512.sKept by decide)]
    have key : gather_S1024x512_S128x512x1_S128x512x512_2_0_n_n_0_2_1512.offsetDims[List.idxOf (1 : Fin 2)
        gather_S1024x512_S128x512x1_S128x512x512_2_0_n_n_0_2_1512.sKept]'(by decide) = (2 : Fin 3) := by
      decide
    rw [key]
    show 0 + 0 + e.val = e.val
    omega

/-- The index word the first lookup uses at (b, p): the first index array's own entry, when it is in range. -/
theorem lookup_word0 (x0 : IVec S128x512 32) (b : Fin 128) (p : Fin 512) (h0 : InRange (x0 (ix2 b p))) :
    val_main_v5 (F := Ideal) x0 (ix3 b p (0 : Fin 1)) = x0 (ix2 b p) := by
  rw [val_main_v5_apply]
  have hi : idx_main_v5 (ix3 b p (0 : Fin 1)) = ix2 b p := by
    funext a; match a with | ⟨0, _⟩ => rfl | ⟨1, _⟩ => rfl
  rw [hi, val_main_v4_apply, val_main_v1_apply, val_main_v0_apply, val_main_c_apply, cmpi_slt_zero h0]
  exact select_zero _ _

/-- The same for the second index array. -/
theorem lookup_word1 (x1 : IVec S128x512 32) (b : Fin 128) (p : Fin 512) (h1 : InRange (x1 (ix2 b p))) :
    val_main_v12 (F := Ideal) x1 (ix3 b p (0 : Fin 1)) = x1 (ix2 b p) := by
  rw [val_main_v12_apply]
  have hi : idx_main_v12 (ix3 b p (0 : Fin 1)) = ix2 b p := by
    funext a; match a with | ⟨0, _⟩ => rfl | ⟨1, _⟩ => rfl
  rw [hi, val_main_v11_apply, val_main_v8_apply, val_main_v7_apply, val_main_c_1_apply, cmpi_slt_zero h1]
  exact select_zero _ _

/-- The first looked-up row at (b, p), entry e. -/
theorem row0_apply (x0 : IVec S128x512 32) (x3 : FVec Ideal S1024x512 .f32) (b : Fin 128) (p : Fin 512) (e : Fin 512)
    (h0 : InRange (x0 (ix2 b p))) :
    val_main_v6 (F := Ideal) x0 x3 (ix3 b p e) = x3 (ix2 (row _ h0) e) := by
  unfold val_main_v6
  refine (gather_row_apply x3 (val_main_v5 (F := Ideal) x0) b p e).trans ?_
  refine congrArg x3 (congrArg (fun r => ix2 r e) (Fin.ext ?_))
  show min (val_main_v5 (F := Ideal) x0 (ix3 b p (0 : Fin 1))).toInt.toNat 1023 = (row _ h0).val
  rw [lookup_word0 x0 b p h0, toInt_toNat h0]
  have := (row _ h0).isLt
  omega

/-- The second looked-up row at (b, p), entry e. -/
theorem row1_apply (x1 : IVec S128x512 32) (x3 : FVec Ideal S1024x512 .f32) (b : Fin 128) (p : Fin 512) (e : Fin 512)
    (h1 : InRange (x1 (ix2 b p))) :
    val_main_v13 (F := Ideal) x1 x3 (ix3 b p e) = x3 (ix2 (row _ h1) e) := by
  unfold val_main_v13
  refine (gather_row_apply x3 (val_main_v12 (F := Ideal) x1) b p e).trans ?_
  refine congrArg x3 (congrArg (fun r => ix2 r e) (Fin.ext ?_))
  show min (val_main_v12 (F := Ideal) x1 (ix3 b p (0 : Fin 1))).toInt.toNat 1023 = (row _ h1).val
  rw [lookup_word1 x1 b p h1, toInt_toNat h1]
  have := (row _ h1).isLt
  omega

/-- THE REFERENCE AT (b, p, d), for index entries in range. -/
theorem ref_apply (x0 x1 : IVec S128x512 32) (x2 : FVec Ideal S128x512x512 .f32) (x3 x4 : FVec Ideal S1024x512 .f32)
    (x5 : FVec Ideal S512 .f32) (b : Fin 128) (p : Fin 512) (d : Fin 512)
    (h0 : InRange (x0 (ix2 b p))) (h1 : InRange (x1 (ix2 b p))) :
    val_main_v19 (F := Ideal) x0 x1 x2 x3 x4 x5 (ix3 b p d)
      = (∑ k : Fin 1024,
          (if h : k.val < 512 then x3 (ix2 (row _ h0) (⟨k.val, h⟩ : Fin 512)) + x3 (ix2 (row _ h1) (⟨k.val, h⟩ : Fin 512))
            else x2 (ix3 b p (⟨k.val - 512, by omega⟩ : Fin 512))) * x4 (ix2 k d)) + x5 (ix1 d) := by
  rw [val_main_v19_apply, val_main_v16_apply, val_main_v18_apply, val_main_v17_apply]
  show _ + _ = _
  congr 1
  · refine Finset.sum_congr rfl fun k _ => ?_
    congr 1
    · by_cases hk : k.val < 512
      · rw [dif_pos hk]
        unfold val_main_v15
        refine (concatenate_pair_apply_left (t := S128x512x1024) (s₁ := S128x512x512) (s₂ := S128x512x512) (2 : Fin 3) _ _ _ _ rfl (ix3 b p (⟨k.val, hk⟩ : Fin 512)) (fun a => ?_)).trans ?_
        · match a with
          | ⟨0, _⟩ => rfl
          | ⟨1, _⟩ => rfl
          | ⟨2, _⟩ => rfl
        · rw [val_main_v14_apply, row0_apply x0 x3 b p _ h0, row1_apply x1 x3 b p _ h1]
          rfl
      · rw [dif_neg hk]
        unfold val_main_v15
        refine concatenate_pair_apply_right (t := S128x512x1024) (s₁ := S128x512x512) (s₂ := S128x512x512) (2 : Fin 3) _ _ _ _ rfl rfl (ix3 b p (⟨k.val - 512, by omega⟩ : Fin 512)) (fun a ha => ?_) ?_
        · match a with
          | ⟨0, _⟩ => rfl
          | ⟨1, _⟩ => rfl
          | ⟨2, _⟩ => exact absurd rfl ha
        · show (k.val - 512) + 512 = k.val
          omega
    · refine congrArg x4 ?_
      funext a; match a with | ⟨0, _⟩ => rfl | ⟨1, _⟩ => rfl
  · refine congrArg x5 ?_
    funext a; match a with | ⟨0, _⟩ => rfl

end Cert.Proof.RefRead

end
-- ==== Proof.Law.lean ====
/-
  The algebra that joins the two programs, at one output element (b, p, d).

  The kernel contracts a row of length 1536 - a count vector over the 1024 table positions (1 at each of the two
  looked-up positions, 2 where they coincide, 0 elsewhere) followed by the 512 latent features - against a column of
  length 1536: the first 1024 entries are the table's rows already multiplied into the first half of the weight column,
  the last 512 the second half of the weight column. The reference contracts a row of length 1024 - the sum of the two
  looked-up table rows followed by the latent features - against the whole weight column. Over the reals the two are
  equal: the count vector picks the two rows' products out of the sum over positions, and multiplication distributes
  over the sum of the two rows. Distributivity is where finiteness is used (on the extended reals it fails at
  infinities), so the table, the weight column and the latent row are taken with real witnesses.
-/
import Idealize.ShloMosaic.PureOps.Ideal
import Mathlib.Algebra.BigOperators.Fin

noncomputable section

open scoped BigOperators

namespace Cert.Proof.Law

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 1536 positions of the kernel's contraction is the sum over the first 1024 plus the sum over the
    last 512. -/
theorem sum_split_1536 {M : Type*} [AddCommMonoid M] (f : Fin 1536 → M) :
    ∑ j : Fin 1536, f j = (∑ l : Fin 1024, f ⟨l.val, by omega⟩) + ∑ i : Fin 512, f ⟨1024 + i.val, by omega⟩ := by
  have h := Fin.sum_univ_add (a := 1024) (b := 512) f
  rw [h]
  rfl

/-- A sum over the 1024 positions of the reference's contraction is the sum over the first 512 plus the sum over the
    last 512. -/
theorem sum_split_1024 {M : Type*} [AddCommMonoid M] (f : Fin 1024 → M) :
    ∑ j : Fin 1024, f j = (∑ k : Fin 512, f ⟨k.val, by omega⟩) + ∑ i : Fin 512, f ⟨512 + i.val, by omega⟩ := by
  have h := Fin.sum_univ_add (a := 512) (b := 512) f
  rw [h]
  rfl

/-- Over the reals: the count vector of two positions, contracted against the rows' products with a column, is the
    sum of the two rows contracted against that column. -/
theorem onehot_rows {L K : ℕ} (E : Fin L → Fin K → ℝ) (w : Fin K → ℝ) (r1 r2 : Fin L) :
    ∑ l : Fin L, ((if l = r1 then (1 : ℝ) else 0) + (if l = r2 then (1 : ℝ) else 0)) * (∑ k : Fin K, E l k * w k)
      = ∑ k : Fin K, (E r1 k + E r2 k) * w k := by
  simp only [add_mul, ite_mul, one_mul, zero_mul, Finset.sum_add_distrib, Finset.sum_ite_eq', Finset.mem_univ, if_true]

/-- THE LAW at one output element. E is the position table, Wm the weight column of the output feature, Lt the
    latent row, β the bias entry, oh the count vector of the two looked-up positions r1, r2. -/
theorem kernel_eq_reference (E : Fin 1024 → Fin 512 → EReal) (Wm : Fin 1024 → EReal) (Lt : Fin 512 → EReal) (β : EReal)
    (oh : Fin 1024 → EReal) (r1 r2 : Fin 1024)
    (hE : ∀ l k, ∃ r : ℝ, E l k = (r : EReal)) (hW : ∀ k, ∃ r : ℝ, Wm k = (r : EReal)) (hL : ∀ k, ∃ r : ℝ, Lt k = (r : EReal))
    (hoh : ∀ l, oh l = (((if l = r1 then (1 : ℝ) else 0) + (if l = r2 then (1 : ℝ) else 0) : ℝ) : EReal)) :
    (∑ j : Fin 1536,
        (if h : j.val < 1024 then oh ⟨j.val, h⟩ else Lt ⟨j.val - 1024, by omega⟩)
        * (if h : j.val < 1024 then ∑ k : Fin 512, E ⟨j.val, h⟩ k * Wm ⟨k.val, by omega⟩ else Wm ⟨j.val - 512, by omega⟩)) + β
      = (∑ k : Fin 1024,
        (if h : k.val < 512 then E r1 ⟨k.val, h⟩ + E r2 ⟨k.val, h⟩ else Lt ⟨k.val - 512, by omega⟩) * Wm k) + β := by
  obtain ⟨E', rfl⟩ : ∃ E' : Fin 1024 → Fin 512 → ℝ, E = fun l k => ((E' l k : ℝ) : EReal) :=
    ⟨fun l k => (hE l k).choose, funext fun l => funext fun k => (hE l k).choose_spec⟩
  obtain ⟨W', rfl⟩ : ∃ W' : Fin 1024 → ℝ, Wm = fun k => ((W' k : ℝ) : EReal) :=
    ⟨fun k => (hW k).choose, funext fun k => (hW k).choose_spec⟩
  obtain ⟨L', rfl⟩ : ∃ L' : Fin 512 → ℝ, Lt = fun k => ((L' k : ℝ) : EReal) :=
    ⟨fun k => (hL k).choose, funext fun k => (hL k).choose_spec⟩
  congr 1
  rw [sum_split_1536]
  conv_rhs => rw [sum_split_1024]
  congr 1
  · -- the table half: the count vector against the rows' products
    have hl : ∀ l : Fin 1024, l.val < 1024 := fun l => l.isLt
    have hk : ∀ k : Fin 512, k.val < 512 := fun k => k.isLt
    simp only [hl, hk, dif_pos, hoh, Fin.eta]
    simp only [← EReal.coe_mul, ← EReal.coe_add, ← coe_sum]
    refine congrArg _ ?_
    exact onehot_rows E' (fun k => W' ⟨k.val, by omega⟩) r1 r2

end Cert.Proof.Law

end
-- ==== Proof.KernelValue.lean ====
/-
  The kernel's result array after its run is the reference's function of the arguments.

  The grid has 64 points; point t stages rows 8t .. 8t + 7 of the two transposed index arrays, the slab [:, 8t .. 8t + 7, :]
  of the latent array, the whole weight array and the whole bias, and writes back the slab [:, 8t .. 8t + 7, :] of the
  result. So entry (b, s, d) of what point t writes is the body's result at (b, s, d) of those blocks, which - by the
  body read at an index, the host-built arrays read at an index, and the algebra - is the reference's value at
  (b, 8t + s, d). The 64 slabs cover the result array.
-/
import proofs.«407743_j41472204210998_3_alg».proof.Proof.Gen.KernelIdeal.Value
import proofs.«407743_j41472204210998_3_alg».proof.Proof.Gen.ReferenceIdeal.Read
import proofs.«407743_j41472204210998_3_alg».proof.Proof.KernelBody
import proofs.«407743_j41472204210998_3_alg».proof.Proof.KernelHost
import proofs.«407743_j41472204210998_3_alg».proof.Proof.RefRead
import proofs.«407743_j41472204210998_3_alg».proof.Proof.Law
import proofs.«407743_j41472204210998_3_alg».proof.Proof.Words
import Idealize.ShloMosaic.Lib.Pipeline.Value
import Idealize.ShloMosaic.Lib.ValueIdx

noncomputable section

open scoped BigOperators

namespace Cert.Proof.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Proof.Words
open Cert.Proof.KernelHost (a0 a1 a2 a3 a4 a5)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the precondition gives on device c: index entries in range, float entries real. -/
structure Ok (c : Dev nD) : Prop where
  r0 : ∀ i, InRange (a0 m c i)
  r1 : ∀ i, InRange (a1 m c i)
  f2 : ∀ i, ∃ r : ℝ, a2 m c i = (r : EReal)
  f3 : ∀ i, ∃ r : ℝ, a3 m c i = (r : EReal)
  f4 : ∀ i, ∃ r : ℝ, a4 m c i = (r : EReal)

/-- The reference's result as a function of the kernel's argument arrays. -/
def G (c : Dev nD) : S128x512x512.Idx → EReal :=
  Cert.ReferenceIdeal.Read.val_main_v19 (F := Ideal) (a0 m c) (a1 m c) (a2 m c) (a3 m c) (a4 m c) (a5 m c)

/-- The printed index maps over the grid: point t's block index is t on the axis of length 512 and 0 elsewhere. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

theorem t_lt (t : Fin cfg0.N) : t.val < 64 := by
  have h : cfg0.N = 64 := N_0
  have := t.isLt
  omega

/-! Each window's block at point t, read off its array. -/

theorem iblk0_apply (c : Dev nD) (t : Fin cfg0.N) (s : Fin 8) (b : Fin 128) (q : Fin 512) (hq : q.val = t.val * 8 + s.val) :
    (iblk m c 0 t : S8x128.Idx → BitVec 32) (ix2 s b) = (V m c main_v2 : S512x128.Idx → BitVec 32) (ix2 q b) := by
  obtain ⟨e0, e1, -⟩ := idx_facts t
  unfold iblk
  rw [View.read_apply]
  show V m c main_v2 _ = V m c main_v2 _
  congr 1
  funext a
  apply Fin.ext
  match a with
  | ⟨0, _⟩ => show win0_0.index t (0 : Fin 2) * 8 + 1 * s.val = q.val; rw [e0, hq]; omega
  | ⟨1, _⟩ => show win0_0.index t (1 : Fin 2) * 128 + 1 * b.val = b.val; rw [e1]; omega

theorem iblk1_apply (c : Dev nD) (t : Fin cfg0.N) (s : Fin 8) (b : Fin 128) (q : Fin 512) (hq : q.val = t.val * 8 + s.val) :
    (iblk m c 1 t : S8x128.Idx → BitVec 32) (ix2 s b) = (V m c main_v3 : S512x128.Idx → BitVec 32) (ix2 q b) := by
  obtain ⟨-, -, e0, e1, -⟩ := idx_facts t
  unfold iblk
  rw [View.read_apply]
  show V m c main_v3 _ = V m c main_v3 _
  congr 1
  funext a
  apply Fin.ext
  match a with
  | ⟨0, _⟩ => show win0_1.index t (0 : Fin 2) * 8 + 1 * s.val = q.val; rw [e0, hq]; omega
  | ⟨1, _⟩ => show win0_1.index t (1 : Fin 2) * 128 + 1 * b.val = b.val; rw [e1]; omega

theorem iblk2_apply (c : Dev nD) (t : Fin cfg0.N) (b : Fin 128) (s : Fin 8) (k : Fin 512) (q : Fin 512) (hq : q.val = t.val * 8 + s.val) :
    (iblk m c 2 t : S128x8x512.Idx → EReal) (ix3 b s k) = a2 m c (ix3 b q k) := by
  obtain ⟨-, -, -, -, e0, e1, e2, -⟩ := idx_facts t
  unfold iblk
  rw [View.read_apply]
  show V m c main_arg2 _ = _
  rw [V_main_arg2]
  show a2 m c _ = a2 m c _
  congr 1
  funext a
  apply Fin.ext
  match a with
  | ⟨0, _⟩ => show win0_2.index t (0 : Fin 3) * 128 + 1 * b.val = b.val; rw [e0]; omega
  | ⟨1, _⟩ => show win0_2.index t (1 : Fin 3) * 8 + 1 * s.val = q.val; rw [e1, hq]; omega
  | ⟨2, _⟩ => show win0_2.index t (2 : Fin 3) * 512 + 1 * k.val = k.val; rw [e2]; omega

theorem iblk3_apply (c : Dev nD) (t : Fin cfg0.N) (j : Fin 1536) (d : Fin 512) :
    (iblk m c 3 t : S1536x512.Idx → EReal) (ix2 j d) = (V m c main_v8 : S1536x512.Idx → EReal) (ix2 j d) := by
  obtain ⟨-, -, -, -, -, -, -, e0, e1, -⟩ := idx_facts t
  unfold iblk
  rw [View.read_apply]
  show V m c main_v8 _ = V m c main_v8 _
  congr 1
  funext a
  apply Fin.ext
  match a with
  | ⟨0, _⟩ => show win0_3.index t (0 : Fin 2) * 1536 + 1 * j.val = j.val; rw [e0]; omega
  | ⟨1, _⟩ => show win0_3.index t (1 : Fin 2) * 512 + 1 * d.val = d.val; rw [e1]; omega

theorem iblk4_apply (c : Dev nD) (t : Fin cfg0.N) (d : Fin 512) :
    (iblk m c 4 t : S512.Idx → EReal) (ix1 d) = a5 m c (ix1 d) := by
  obtain ⟨-, -, -, -, -, -, -, -, -, e0, -⟩ := idx_facts t
  unfold iblk
  rw [View.read_apply]
  show V m c main_arg5 _ = _
  rw [V_main_arg5]
  show a5 m c _ = a5 m c _
  congr 1
  funext a
  apply Fin.ext
  match a with
  | ⟨0, _⟩ => show win0_4.index t (0 : Fin 1) * 512 + 1 * d.val = d.val; rw [e0]; omega

/-- WHAT POINT t WRITES BACK is its slab of the reference's result. -/
theorem flushed_eq (c : Dev nD) (hok : Ok m c) (t : Fin cfg0.N) :
    (dats m 0 c).flushed 5 t = ((cfg0.win 5).blk t).view.read (Elt Ideal) (G m c) := by
  rw [Cert.KernelIdeal.Value.flushed5]
  unfold out0_5
  rw [View.canon_unit_zero hz3]
  simp only [View.ld_unit_zero (S := S8x128) hz2, View.ld_unit_zero (S := S128x8x512) hz3,
    View.ld_unit_zero (S := S1536x512) hz2, View.ld_unit_zero (S := S512) hz1]
  funext y
  obtain ⟨b, s, d, rfl⟩ : ∃ (b : Fin 128) (s : Fin 8) (d : Fin 512), y = ix3 b s d := ⟨y 0, y 1, y 2, eq_ix3 y⟩
  have hN := t_lt t
  obtain ⟨-, -, -, -, -, -, -, -, -, -, o0, o1, o2⟩ := idx_facts t
  let p : Fin 512 := ⟨t.val * 8 + s.val, by omega⟩
  have hp : p.val = t.val * 8 + s.val := rfl
  show k0_pay1 (F := Ideal) (iblk m c 0 t) (iblk m c 1 t) (iblk m c 2 t) (iblk m c 3 t) (iblk m c 4 t) (ix3 b s d)
      = G m c (((cfg0.win 5).blk t).view.emb (ix3 b s d))
  have hemb : ((cfg0.win 5).blk t).view.emb (ix3 b s d) = ix3 b p d := by
    funext a
    apply Fin.ext
    match a with
    | ⟨0, _⟩ => show win0_5.index t (0 : Fin 3) * 128 + 1 * b.val = b.val; rw [o0]; omega
    | ⟨1, _⟩ => show win0_5.index t (1 : Fin 3) * 8 + 1 * s.val = p.val; rw [o1, hp]; omega
    | ⟨2, _⟩ => show win0_5.index t (2 : Fin 3) * 512 + 1 * d.val = d.val; rw [o2]; omega
  rw [hemb]
  refine (Cert.Proof.KernelBody.pay_apply (iblk m c 0 t) (iblk m c 1 t) (iblk m c 2 t) (iblk m c 3 t) (iblk m c 4 t) b s d).trans ?_
  have w0 : (iblk m c 0 t : S8x128.Idx → BitVec 32) (ix2 s b) = a0 m c (ix2 b p) :=
    (iblk0_apply m c t s b p hp).trans (Cert.Proof.KernelHost.idx0_apply m c p b (hok.r0 _))
  have w1 : (iblk m c 1 t : S8x128.Idx → BitVec 32) (ix2 s b) = a1 m c (ix2 b p) :=
    (iblk1_apply m c t s b p hp).trans (Cert.Proof.KernelHost.idx1_apply m c p b (hok.r1 _))
  unfold G
  rw [Cert.Proof.RefRead.ref_apply (a0 m c) (a1 m c) (a2 m c) (a3 m c) (a4 m c) (a5 m c) b p d (hok.r0 _) (hok.r1 _)]
  refine Eq.trans ?_ (Cert.Proof.Law.kernel_eq_reference
    (fun l k => a3 m c (ix2 l k)) (fun k => a4 m c (ix2 k d)) (fun k => a2 m c (ix3 b p k)) (a5 m c (ix1 d))
    (fun l => (((IntOp.addi ((IntOp.cmpi .eq (BitVec.ofNat 32 l.val) (a0 m c (ix2 b p))).setWidth 32)
        ((IntOp.cmpi .eq (BitVec.ofNat 32 l.val) (a1 m c (ix2 b p))).setWidth 32)).toInt : ℝ) : EReal))
    (row _ (hok.r0 (ix2 b p))) (row _ (hok.r1 (ix2 b p)))
    (fun l k => hok.f3 _) (fun k => hok.f4 _) (fun k => hok.f2 _)
    (fun l => onehot_entry (hok.r0 (ix2 b p)) (hok.r1 (ix2 b p)) l))
  rw [iblk4_apply m c t d]
  refine congrArg (fun z => z + a5 m c (ix1 d)) ?_
  refine Finset.sum_congr rfl fun j _ => ?_
  refine congr (congrArg HMul.hMul ?_) ((iblk3_apply m c t j d).trans (Cert.Proof.KernelHost.wcat_apply m c j d))
  by_cases hj : j.val < 1024
  · rw [dif_pos hj, dif_pos hj, w0, w1]
  · rw [dif_neg hj, dif_neg hj]
    exact iblk2_apply m c t b s (⟨j.val - 1024, by omega⟩ : Fin 512) p hp

/-- An index of the result array is in point t's slab iff each coordinate is in the slab's range on its axis. -/
theorem mem_blk (t : Fin cfg0.N) (i : S128x512x512.Idx) :
    i ∈ ((cfg0.win 5).blk t).view.set ↔ ∀ a : Fin 3, win0_5.index t a * S128x8x512.size a ≤ (i a).val
      ∧ (i a).val < win0_5.index t a * S128x8x512.size a + S128x8x512.size a := by
  show i ∈ ((View.whole main_v9).slice (win0_5.rect t)).set ↔ _
  rw [View.set_slice_whole, Rect.mem_set_unit]
  exact Iff.rfl

/-- Every index of the result array is in some point's slab: the one whose number is the middle coordinate over 8. -/
theorem cover (i : S128x512x512.Idx) : ∃ t : Fin cfg0.N, (cfg0.win 5).flush t = true ∧ i ∈ ((cfg0.win 5).blk t).view.set := by
  have h0 : (i 0).val < 128 := (i 0).isLt
  have h1 : (i 1).val < 512 := (i 1).isLt
  have h2 : (i 2).val < 512 := (i 2).isLt
  have hN : cfg0.N = 64 := N_0
  let t : Fin cfg0.N := ⟨(i 1).val / 8, by omega⟩
  have ht : t.val = (i 1).val / 8 := rfl
  obtain ⟨-, -, -, -, -, -, -, -, -, -, o0, o1, o2⟩ := idx_facts t
  refine ⟨t, flush0_5 t, ?_⟩
  rw [mem_blk]
  intro a
  match a with
  | ⟨0, _⟩ => show win0_5.index t (0 : Fin 3) * 128 ≤ (i 0).val ∧ (i 0).val < win0_5.index t (0 : Fin 3) * 128 + 128; rw [o0]; omega
  | ⟨1, _⟩ => show win0_5.index t (1 : Fin 3) * 8 ≤ (i 1).val ∧ (i 1).val < win0_5.index t (1 : Fin 3) * 8 + 8; rw [o1, ht]; omega
  | ⟨2, _⟩ => show win0_5.index t (2 : Fin 3) * 512 ≤ (i 2).val ∧ (i 2).val < win0_5.index t (2 : Fin 3) * 512 + 512; rw [o2]; omega

/-- THE RESULT ARRAY after the run is the reference's function of the arguments. -/
theorem final (c : Dev nD) (hok : Ok m c) : (dats m 0 c).arrAt 5 cfg0.N = G m c :=
  (dats m 0 c).arrAt_eq_of_cover 5 (G m c) (fun t _ => flushed_eq m c hok t) cover

/-- The kernel's run, read: the result array at the reference's function of the arguments, the arguments unchanged. -/
theorem run (hok : ∀ c, Ok m c) : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hok c)), (h c).2⟩)
    (Cert.KernelIdeal.Value.run_blocks m ρ)

end Cert.Proof.KernelValue

end
-- ==== Proof.lean ====
/-
  A position-embedding layer: for each of 128 x 512 tokens, two rows of a 1024 x 512 position table are looked up (by the
  token's two integer positions), added, concatenated with the token's 512 latent features, and pushed through a linear
  layer (a 1024 x 512 weight matrix and a bias).

  The reference does exactly that. The kernel never forms the looked-up rows: on the host it multiplies the whole table
  into the first half of the weight matrix once, stacks the second half of the weight matrix under the product, and in
  the kernel body replaces the lookup by a count vector over the 1024 positions (how many of the token's two positions
  equal each position), contracted, together with the latent features, against that stacked 1536 x 512 matrix.

  Over the extended reals the two agree when the float inputs are finite and the positions lie in the table's range
  [0, 1024): contracting the count vector against the rows' products picks out the two rows' products, and
  multiplication distributes over the sum of the two rows (Law); the precondition gives finiteness and the range
  (PreFacts); the reference read at an element is RefRead, the kernel's body, host-built arrays and blocks read at an
  element are KernelBody, KernelHost and KernelValue. Outside the range the claim is false (a negative position counts
  from the table's end in the reference and is clamped to row 0 by the kernel), which is why the range is assumed.

  The frames of the two kernel programs are the generated ones; the reference's frame is its generated run with the
  result dropped; the idealization rewrote nothing, so there is nothing to preserve.
-/
import proofs.«407743_j41472204210998_3_alg».proof.Defs
import proofs.«407743_j41472204210998_3_alg».proof.Proof.Gen.Kernel
import proofs.«407743_j41472204210998_3_alg».proof.Proof.Gen.Kernel.Skeleton
import proofs.«407743_j41472204210998_3_alg».proof.Proof.Gen.Kernel.Launch
import proofs.«407743_j41472204210998_3_alg».proof.Proof.Gen.Kernel.Points
import proofs.«407743_j41472204210998_3_alg».proof.Proof.Gen.Kernel.Frame
import proofs.«407743_j41472204210998_3_alg».proof.Proof.Gen.KernelIdeal
import proofs.«407743_j41472204210998_3_alg».proof.Proof.Gen.KernelIdeal.Skeleton
import proofs.«407743_j41472204210998_3_alg».proof.Proof.Gen.KernelIdeal.Launch
import proofs.«407743_j41472204210998_3_alg».proof.Proof.Gen.KernelIdeal.Points
import proofs.«407743_j41472204210998_3_alg».proof.Proof.Gen.KernelIdeal.Frame
import proofs.«407743_j41472204210998_3_alg».proof.Proof.Gen.ReferenceIdeal
import proofs.«407743_j41472204210998_3_alg».proof.Proof.Gen.Pre_finite_inputs
import proofs.«407743_j41472204210998_3_alg».proof.Proof.Gen.KernelIdeal.Value
import proofs.«407743_j41472204210998_3_alg».proof.Proof.Gen.ReferenceIdeal.Run
import proofs.«407743_j41472204210998_3_alg».proof.Proof.Gen.ReferenceIdeal.Read
import proofs.«407743_j41472204210998_3_alg».proof.Proof.PreFacts
import proofs.«407743_j41472204210998_3_alg».proof.Proof.KernelValue
import Idealize.ShloMosaic.Adequacy
import Idealize.ShloMosaic.Init

noncomputable section

namespace Cert.Proof

open Idealize.ShloMosaic Idealize.SL.Sem

/-- The precondition, on every device: positions in the table's range, float entries real. -/
theorem ok_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Proof.KernelValue.Ok m c := by
  obtain ⟨f2, f3, f4, _, r0, r1⟩ := Cert.Proof.PreFacts.decode _ _ _ _ _ _ (h c)
  exact ⟨r0, r1, f2, f3, f4⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the (agreeing) arguments in their result arrays. -/
theorem algebraic : Cert.algebraic_KernelIdeal_ReferenceIdeal := by
  intro m ρ m' ρ' hpre hagree
  refine ⟨fun c => Cert.Proof.KernelValue.G m c, Cert.Proof.KernelValue.run m ρ (ok_of_pre m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v19_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
